-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x640000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 40
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S128x128, .bf16⟩
  | .hbm, ⟨36, _⟩ => ⟨S128x128, .f32⟩
  | .hbm, ⟨37, _⟩ => ⟨S128x128, .bf16⟩
  | .hbm, ⟨38, _⟩ => ⟨S1x128, .f32⟩
  | .hbm, ⟨39, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageSpec.lean ====
/-
  The value both programs compute, as one function of the arrays.

  A mean-aggregation graph layer ends in two dense projections and a bias: with `agg` the per-node mean of the
  neighbours' rows, `x` the node features, `W_l`, `W_r` the two weight matrices (stored output-channel first) and
  `b` the bias, the result at node `r`, channel `c` is

      (Σ_k agg[r,k] · W_l[c,k]  +  Σ_k x[r,k] · W_r[c,k])  +  b[c].

  Over the extended reals every float format change is the identity and a product of matrices is this plain sum,
  so nothing but the ORDER of the three summands distinguishes the two programs: one adds the bias last, the
  other between the two projections. Addition of extended reals is commutative and associative, so the two orders
  agree everywhere (infinite entries included): `add_bias_last`.
-/
import Idealize.ShloMosaic.PureOps.Ideal
import Idealize.ShloMosaic.Lib.ValueIdx

noncomputable section

open Idealize.ShloMosaic Idealize.ShloMosaic.ValueIdx
open scoped BigOperators

namespace Cert.Sage

/-- The layer's result, index by index: row `r` of `agg` against row `c` of `wl`, plus row `r` of `x` against row
    `c` of `wr`, plus `b` at `c`. -/
def layer (agg x : (⟨2, ![100000, 128]⟩ : Shape).Idx → EReal) (wl wr : (⟨2, ![128, 128]⟩ : Shape).Idx → EReal)
    (b : (⟨1, ![128]⟩ : Shape).Idx → EReal) : (⟨2, ![100000, 128]⟩ : Shape).Idx → EReal :=
  fun i => (∑ k : Fin 128, agg (ix2 (i 0) k) * wl (ix2 (i 1) k) + ∑ k : Fin 128, x (ix2 (i 0) k) * wr (ix2 (i 1) k))
    + b (ix1 (i 1))

/-- The layer's value at row `r`, channel `c`. -/
theorem layer_apply (agg x : (⟨2, ![100000, 128]⟩ : Shape).Idx → EReal) (wl wr : (⟨2, ![128, 128]⟩ : Shape).Idx → EReal)
    (b : (⟨1, ![128]⟩ : Shape).Idx → EReal) (r : Fin 100000) (c : Fin 128) :
    layer agg x wl wr b (ix2 r c)
      = (∑ k : Fin 128, agg (ix2 r k) * wl (ix2 c k) + ∑ k : Fin 128, x (ix2 r k) * wr (ix2 c k)) + b (ix1 c) := rfl

/-- Adding the bias between the two projections or after them is the same extended real. -/
theorem add_bias_last (A X B : EReal) : (A + B) + X = (A + X) + B := add_right_comm A B X

end Cert.Sage

end
-- ==== Proof.SageBody.lean ====
/-
  One grid step's arithmetic, read at an index.

  The body loads a 4000-row block of `agg` and of `x`, the two (transposed) weight matrices and the bias row,
  and stores  (agg_blk · wl + x_blk · wr) + bias  into the output block. Over the extended reals the narrowing
  of the matrix operands is the identity and each matrix product into a zero accumulator is the plain sum over the
  contracted axis, so at row `p`, column `q` of the block the stored value is

      (Σ_k agg_blk[p,k] · wl[k,q]  +  Σ_k x_blk[p,k] · wr[k,q])  +  bias[0,q].
-/
import proofs.«107331_j53755810677325_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.Sage.Body

open Cert.KernelIdeal Cert.KernelIdeal.Gen

/-! ## The block product's operand indices, axis by axis -/

theorem lhs_row (i : S4000x128.Idx) (s : dot_S4000x128_S128x128_S4000x128_1_0_0_1_n_n.contr.Idx) :
    (dot_S4000x128_S128x128_S4000x128_1_0_0_1_n_n.lhsIdx i s 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_col (i : S4000x128.Idx) (s : dot_S4000x128_S128x128_S4000x128_1_0_0_1_n_n.contr.Idx) :
    (dot_S4000x128_S128x128_S4000x128_1_0_0_1_n_n.lhsIdx i s 1).val = (s ⟨0, by decide⟩).val :=
  dot_S4000x128_S128x128_S4000x128_1_0_0_1_n_n.lhsIdx_val_of_single rfl i s
theorem rhs_row (i : S4000x128.Idx) (s : dot_S4000x128_S128x128_S4000x128_1_0_0_1_n_n.contr.Idx) :
    (dot_S4000x128_S128x128_S4000x128_1_0_0_1_n_n.rhsIdx i s 0).val = (s ⟨0, by decide⟩).val :=
  dot_S4000x128_S128x128_S4000x128_1_0_0_1_n_n.rhsIdx_val_of_single rfl i s
theorem rhs_col (i : S4000x128.Idx) (s : dot_S4000x128_S128x128_S4000x128_1_0_0_1_n_n.contr.Idx) :
    (dot_S4000x128_S128x128_S4000x128_1_0_0_1_n_n.rhsIdx i s 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, at row `p` and column `q`: the sum over the 128 contracted
    positions of the left operand's row `p` times the right operand's column `q`. -/
theorem blockProduct_apply (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row broadcast down the block reads the row's entry of the column. -/
theorem biasRows_apply (b : FVec Ideal S1x128 .f32) (p : Fin 4000) (q : Fin 128) :
    broadcastTo S4000x128 b broadcasts_S1x128_S4000x128 (ix2 p q) = b (ix2 0 q) :=
  broadcastTo_apply b broadcasts_S1x128_S4000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- What one grid step stores, at row `p`, column `q` of its block. -/
theorem stored_apply (a x : Vec Ideal S4000x128 .f32) (wl wr : Vec Ideal S128x128 .bf16) (b : Vec Ideal S1x128 .f32)
    (p : Fin 4000) (q : Fin 128) :
    k0_pay1 (F := Ideal) a x wl wr b (ix2 p q)
      = (∑ k : Fin 128, a (ix2 p k) * wl (ix2 k q) + ∑ k : Fin 128, x (ix2 p k) * wr (ix2 k q)) + b (ix2 0 q) := by
  unfold k0_pay1
  simp only [shapeCast_self]
  refine congrArg₂ (· + ·) (congrArg₂ (· + ·) ?_ ?_) ?_
  · exact blockProduct_apply _ _ p q
  · exact blockProduct_apply _ _ p q
  · exact biasRows_apply b p q

end Cert.Sage.Body

end
-- ==== Proof.SageRef.lean ====
/-
  The reference's result is the layer's value.

  After the aggregation (gather, segment sums, division by the clamped neighbour count: the array called `agg`
  here, kept as one opaque stage) the reference transposes each weight matrix, takes the two matrix products
  and adds the broadcast bias BETWEEN them:  (agg · W_lᵀ + b) + x · W_rᵀ.  Read at an index, a transposed matrix at
  (k, c) is the matrix at (c, k), a product is the sum over the contracted axis, and the broadcast bias at (r, c)
  is the bias at c; commuting the last two summands gives the layer's value.
-/
import proofs.«107331_j53755810677325_1_alg».proof.Proof.Gen.ReferenceIdeal.Read
import proofs.«107331_j53755810677325_1_alg».proof.Proof.SageSpec

noncomputable section

open Idealize.ShloMosaic Idealize.ShloMosaic.ValueIdx
open scoped BigOperators

namespace Cert.Sage.Ref

open Cert.ReferenceIdeal Cert.ReferenceIdeal.Read

/-- Row `r`, position `k` of the left operand of either product. -/
theorem left_at (i : S100000x128.Idx) (k : Fin 128) : lidx_main_v24 i k = ix2 (i 0) k :=
  funext fun a => Fin.ext (by match a with | ⟨0, _⟩ => rfl | ⟨1, _⟩ => rfl)
theorem left_at' (i : S100000x128.Idx) (k : Fin 128) : lidx_main_v29 i k = ix2 (i 0) k :=
  funext fun a => Fin.ext (by match a with | ⟨0, _⟩ => rfl | ⟨1, _⟩ => rfl)
/-- The transposed weight at (k, c) is the weight at (c, k). -/
theorem weight_at (i : S100000x128.Idx) (k : Fin 128) : idx_main_v23 (ridx_main_v24 i k) = ix2 (i 1) k :=
  funext fun a => Fin.ext (by match a with | ⟨0, _⟩ => rfl | ⟨1, _⟩ => rfl)
theorem weight_at' (i : S100000x128.Idx) (k : Fin 128) : idx_main_v28 (ridx_main_v29 i k) = ix2 (i 1) k :=
  funext fun a => Fin.ext (by match a with | ⟨0, _⟩ => rfl | ⟨1, _⟩ => rfl)
/-- The bias broadcast over the rows, at (r, c), is the bias at c. -/
theorem bias_at (i : S100000x128.Idx) : idx_main_v25 (idx_main_v26 i) = ix1 (i 1) :=
  funext fun a => Fin.ext (by match a with | ⟨0, _⟩ => rfl)

/-- The reference's last stage is the layer's value of the aggregated array, the features, the two weight
    matrices and the bias. -/
theorem result_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4 = Cert.Sage.layer (val_main_v22 (F := Ideal) x0 x1) x0 x2 x4 x3 := by
  funext i
  rw [val_main_v30_apply, val_main_v27_apply, val_main_v24_apply, val_main_v26_apply, val_main_v25_apply, val_main_v29_apply]
  simp only [val_main_v23_apply, val_main_v28_apply, left_at, left_at', weight_at, weight_at', bias_at, Ideal.addf_def]
  exact Cert.Sage.add_bias_last _ _ _

end Cert.Sage.Ref

end
-- ==== Proof.SageHost.lean ====
/-
  The arrays the kernel call finds, as the host part of the program left them.

  Before the call the program computes, with ordinary array operations, the aggregated array `agg` (gather of the
  source rows, sum into the destination rows, neighbour count clamped below by one, quotient), the two weight
  matrices transposed (and narrowed, which is the identity on extended reals) and the bias reshaped to one row.
  `agg` is kept as ONE stage, the same one the reference computes; a transposed weight at (k, q) is the weight at
  (q, k); the one-row bias at (0, q) is the bias at q.
-/
import proofs.«107331_j53755810677325_1_alg».proof.Proof.Gen.KernelIdeal.Frame
import proofs.«107331_j53755810677325_1_alg».proof.Proof.Gen.ReferenceIdeal.Read
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.Sage.Host

open Cert.KernelIdeal Cert.KernelIdeal.Gen

variable (m : (ℓ : Loc nD τ sig) → Buf (Elt Ideal) ℓ)

/-! ## The arrays the host part wrote before the call -/

/-- The left weight operand as the call finds it: the weight matrix transposed (its narrowing is the identity on
    extended reals). -/
theorem wl_entry (c : Dev nD) : (V m c main_v24 : S128x128.Idx → EReal)
    = truncf (F := Ideal) .bf16 (transpose S128x128 [1, 0] (m ((c : Thread nD τ).loc main_arg2)) transposes_S128x128_S128x128_1_0) bitsLt_bf16_f32 := by
  dsimp only [Gen.V, Gen.hostOps0]; after_results

/-- The right weight operand likewise. -/
theorem wr_entry (c : Dev nD) : (V m c main_v26 : S128x128.Idx → EReal)
    = truncf (F := Ideal) .bf16 (transpose S128x128 [1, 0] (m ((c : Thread nD τ).loc main_arg4)) transposes_S128x128_S128x128_1_0) bitsLt_bf16_f32 := by
  dsimp only [Gen.V, Gen.hostOps0]; after_results

/-- The bias operand: the bias reshaped to one row. -/
theorem bias_entry (c : Dev nD) : (V m c main_v27 : S1x128.Idx → EReal)
    = shapeCast S1x128 (m ((c : Thread nD τ).loc main_arg3)) shapeCasts_S128_S1x128 := by
  dsimp only [Gen.V, Gen.hostOps0]; after_results; rfl

set_option maxHeartbeats 2000000 in
/-- The aggregated array as the call finds it is the same stage of the reference: both programs compute it by the
    same operations (gather of the source rows, sum into the destination rows, neighbour count clamped below by one,
    quotient) of the features and the edge list. -/
theorem agg_entry (c : Dev nD) : (V m c main_v22 : S100000x128.Idx → EReal)
    = Cert.ReferenceIdeal.Read.val_main_v22 (F := Ideal) (m ((c : Thread nD τ).loc main_arg0)) (m ((c : Thread nD τ).loc main_arg1)) := by
  dsimp only [Gen.V, Gen.hostOps0]; after_results_simp <;> rfl

/-- The transposed weight at (k, q) is the weight at (q, k). -/
theorem wl_at (c : Dev nD) (k q : Fin 128) :
    (V m c main_v24 : S128x128.Idx → EReal) (ix2 k q) = (m ((c : Thread nD τ).loc main_arg2) : S128x128.Idx → EReal) (ix2 q k) := by
  rw [wl_entry]
  exact transpose_apply [1, 0] _ transposes_S128x128_S128x128_1_0 (ix2 k q) (ix2 q k) (fun b => match b with
    | ⟨0, _⟩ => rfl
    | ⟨1, _⟩ => rfl)

theorem wr_at (c : Dev nD) (k q : Fin 128) :
    (V m c main_v26 : S128x128.Idx → EReal) (ix2 k q) = (m ((c : Thread nD τ).loc main_arg4) : S128x128.Idx → EReal) (ix2 q k) := by
  rw [wr_entry]
  exact transpose_apply [1, 0] _ transposes_S128x128_S128x128_1_0 (ix2 k q) (ix2 q k) (fun b => match b with
    | ⟨0, _⟩ => rfl
    | ⟨1, _⟩ => rfl)

/-- The one-row bias at (0, q) is the bias at q. -/
theorem bias_at (c : Dev nD) (q : Fin 128) :
    (V m c main_v27 : S1x128.Idx → EReal) (ix2 0 q) = (m ((c : Thread nD τ).loc main_arg3) : S128.Idx → EReal) (ix1 q) := by
  rw [bias_entry]
  exact shapeCast_apply _ shapeCasts_S128_S1x128 (ix2 0 q) (ix1 q)
    (by rewrite [Shape.rowMajor_val_one, Shape.rowMajor_val_two]; show q.val = 0 * 128 + q.val; omega)

end Cert.Sage.Host

end
-- ==== Proof.SageKernel.lean ====
/-
  The kernel's result array is the layer's value.

  The grid has 25 steps; step `t` works on rows 4000·t … 4000·t + 3999. It reads those rows of `agg` (the array
  the host part of the program computed before the call: gather, segment sums, division by the clamped neighbour
  count) and of `x`, the whole transposed weight matrices and the bias row, and writes those rows of the result.
  Row `p` of step `t`'s block is row 4000·t + p of the array; a transposed weight at (k, q) is the weight at
  (q, k); the bias reshaped to one row, at (0, q), is the bias at q. With the stored value of one step read at an
  index (the block products as sums over the contracted axis) each written block is the matching block of the
  layer's value, and the 25 blocks tile the 100000 rows, so the whole array ends at the layer's value.
-/
import proofs.«107331_j53755810677325_1_alg».proof.Proof.Gen.KernelIdeal.Value
import proofs.«107331_j53755810677325_1_alg».proof.Proof.SageHost
import proofs.«107331_j53755810677325_1_alg».proof.Proof.SageSpec
import proofs.«107331_j53755810677325_1_alg».proof.Proof.SageBody
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx Idealize.ShloMosaic.StableHlo
open Idealize.ShloMosaic.Pipeline (Dat)
open scoped BigOperators

namespace Cert.Sage.Kernel

open Cert.KernelIdeal Cert.KernelIdeal.Gen Cert.KernelIdeal.Value Cert.Sage.Host

variable (m : (ℓ : Loc nD τ sig) → Buf (Elt Ideal) ℓ) (ρ : Dev nD → PrngReg)

theorem hz : (![0, 0] : Fin 2 → Nat) = fun _ => 0 := funext fun a => by fin_cases a <;> rfl

/-! ## The grid: which rows a step works on -/

/-- The printed index maps, decided over the 25 steps: the row-blocked windows (the two inputs and the output) are at
    block (t, 0), the resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of step `t`'s block, as a row of the array. -/
def row (t : Fin cfg0.N) (p : Fin 4000) : Fin 100000 :=
  ⟨4000 * t.val + p.val, by have := t.isLt; have hN : cfg0.N = 25 := N_0; have := p.isLt; omega⟩

/-! Reading an array through a step's block. Each is stated for ANY array of the window's shape, and used at the
    array the call finds. -/

/-- Step `t`'s block of the first row-blocked input, at (p, k), is the array at (4000·t + p, k). -/
theorem rows0 (A : S100000x128.Idx → EReal) (t : Fin cfg0.N) (p : Fin 4000) (k : Fin 128) :
    ((cfg0.win 0).blk t).view.read (Elt Ideal) A (ix2 p k) = A (ix2 (row t p) k) := by
  obtain ⟨e0, e1, -⟩ := idx_facts t
  rw [View.read_apply]
  refine congrArg A ?_
  funext a
  apply Fin.ext
  match a with
  | ⟨0, _⟩ => show win0_0.index t 0 * 4000 + 1 * p.val = 4000 * t.val + p.val; rw [e0]; omega
  | ⟨1, _⟩ => show win0_0.index t 1 * 128 + 1 * k.val = k.val; rw [e1]; omega

/-- The second row-blocked input: the same rows. -/
theorem rows1 (A : S100000x128.Idx → EReal) (t : Fin cfg0.N) (p : Fin 4000) (k : Fin 128) :
    ((cfg0.win 1).blk t).view.read (Elt Ideal) A (ix2 p k) = A (ix2 (row t p) k) := by
  obtain ⟨-, -, e0, e1, -⟩ := idx_facts t
  rw [View.read_apply]
  refine congrArg A ?_
  funext a
  apply Fin.ext
  match a with
  | ⟨0, _⟩ => show win0_1.index t 0 * 4000 + 1 * p.val = 4000 * t.val + p.val; rw [e0]; omega
  | ⟨1, _⟩ => show win0_1.index t 1 * 128 + 1 * k.val = k.val; rw [e1]; omega

/-- A resident weight operand's one block is the whole operand. -/
theorem whole2 (W : S128x128.Idx → EReal) (t : Fin cfg0.N) (k q : Fin 128) :
    ((cfg0.win 2).blk t).view.read (Elt Ideal) W (ix2 k q) = W (ix2 k q) := by
  obtain ⟨-, -, -, -, e0, e1, -⟩ := idx_facts t
  rw [View.read_apply]
  refine congrArg W ?_
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

theorem whole3 (W : S128x128.Idx → EReal) (t : Fin cfg0.N) (k q : Fin 128) :
    ((cfg0.win 3).blk t).view.read (Elt Ideal) W (ix2 k q) = W (ix2 k q) := by
  obtain ⟨-, -, -, -, -, -, e0, e1, -⟩ := idx_facts t
  rw [View.read_apply]
  refine congrArg W ?_
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

/-- The resident bias row's one block is the row. -/
theorem whole4 (B : S1x128.Idx → EReal) (t : Fin cfg0.N) (q : Fin 128) :
    ((cfg0.win 4).blk t).view.read (Elt Ideal) B (ix2 0 q) = B (ix2 0 q) := by
  obtain ⟨-, -, -, -, -, -, -, -, e0, e1, -⟩ := idx_facts t
  rw [View.read_apply]
  refine congrArg B ?_
  funext a
  apply Fin.ext
  match a with
  | ⟨0, _⟩ => show win0_4.index t 0 * 1 + 1 * 0 = 0; rw [e0]
  | ⟨1, _⟩ => show win0_4.index t 1 * 128 + 1 * q.val = q.val; rw [e1]; omega

/-- Where step `t`'s output block sits in the result array. -/
theorem outBlock_emb (t : Fin cfg0.N) (p : Fin 4000) (q : Fin 128) :
    ((cfg0.win 5).blk t).view.emb (ix2 p q) = (ix2 (row t p) q : S100000x128.Idx) := by
  obtain ⟨-, -, -, -, -, -, -, -, -, -, e0, e1⟩ := idx_facts t
  funext a
  apply Fin.ext
  match a with
  | ⟨0, _⟩ => show win0_5.index t 0 * 4000 + 1 * p.val = 4000 * t.val + p.val; rw [e0]; omega
  | ⟨1, _⟩ => show win0_5.index t 1 * 128 + 1 * q.val = q.val; rw [e1]; omega

/-! ## Each step writes its block of the layer's value; the blocks tile the array -/

/-- ONE STEP, for any arrays behind the five input windows: if the two weight operands are the transposes of `wl`,
    `wr` and the bias operand is `b` as one row, what step `t` leaves in the output window's buffer, read through
    the window, is block `t` of the layer's value. -/
theorem step_eq (A X : S100000x128.Idx → EReal) (Wl Wr : S128x128.Idx → EReal) (B : S1x128.Idx → EReal)
    (wl wr : S128x128.Idx → EReal) (b : S128.Idx → EReal)
    (hwl : ∀ k q : Fin 128, Wl (ix2 k q) = wl (ix2 q k)) (hwr : ∀ k q : Fin 128, Wr (ix2 k q) = wr (ix2 q k))
    (hb : ∀ q : Fin 128, B (ix2 0 q) = b (ix1 q)) (t : Fin cfg0.N) :
    (cfg0.win 5).cut (grid0.coords t)
        (out0_5 (F := Ideal) (((cfg0.win 0).blk t).view.read (Elt Ideal) A) (((cfg0.win 1).blk t).view.read (Elt Ideal) X)
          (((cfg0.win 2).blk t).view.read (Elt Ideal) Wl) (((cfg0.win 3).blk t).view.read (Elt Ideal) Wr)
          (((cfg0.win 4).blk t).view.read (Elt Ideal) B))
      = ((cfg0.win 5).blk t).view.read (Elt Ideal) (Cert.Sage.layer A X wl wr b) := by
  unfold out0_5
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k0_pay1 (F := Ideal) _ _ _ _ _ (ix2 p q) = Cert.Sage.layer A X wl wr b (((cfg0.win 5).blk t).view.emb (ix2 p q))
  refine (Cert.Sage.Body.stored_apply _ _ _ _ _ p q).trans ?_
  rw [outBlock_emb, Cert.Sage.layer_apply]
  refine congrArg₂ (· + ·) (congrArg₂ (· + ·) (Finset.sum_congr rfl fun k _ => ?_) (Finset.sum_congr rfl fun k _ => ?_)) ?_
  · exact congrArg₂ (· * ·) (rows0 A t p k) ((whole2 Wl t k q).trans (hwl k q))
  · exact congrArg₂ (· * ·) (rows1 X t p k) ((whole3 Wr t k q).trans (hwr k q))
  · exact (whole4 B t q).trans (hb q)

/-- The layer's value of the arrays as the call finds them. -/
abbrev result (c : Dev nD) : S100000x128.Idx → EReal :=
  Cert.Sage.layer (V m c main_v22) (m ((c : Thread nD τ).loc main_arg0)) (m ((c : Thread nD τ).loc main_arg2))
    (m ((c : Thread nD τ).loc main_arg4)) (m ((c : Thread nD τ).loc main_arg3))

/-- What step `t` writes back is block `t` of the layer's value: `step_eq` at the arrays the call finds (the
    features' array is the argument itself, which the host part does not write). -/
theorem flushed_eq (c : Dev nD) (t : Fin cfg0.N) :
    (dats m 0 c).flushed 5 t = ((cfg0.win 5).blk t).view.read (Elt Ideal) (result m c) := by
  rw [flushed5]
  have hx : iblk m c 1 t = ((cfg0.win 1).blk t).view.read (Elt Ideal) (m ((c : Thread nD τ).loc main_arg0)) :=
    congrArg (((cfg0.win 1).blk t).view.read (Elt Ideal)) (V_main_arg0 m c)
  rw [hx]
  exact step_eq (V m c main_v22) (m ((c : Thread nD τ).loc main_arg0)) (V m c main_v24) (V m c main_v26) (V m c main_v27)
    (m ((c : Thread nD τ).loc main_arg2)) (m ((c : Thread nD τ).loc main_arg4)) (m ((c : Thread nD τ).loc main_arg3))
    (wl_at m c) (wr_at m c) (bias_at m c) t

/-- An index of the array is in step `t`'s output block iff each coordinate is in the block's range. -/
theorem mem_outBlock (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v28).slice (win0_5.rect t)).set ↔ _
  rw [View.set_slice_whole, Rect.mem_set_unit]
  exact Iff.rfl

/-- Row `r` is written by step `r / 4000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  have ht : (i 0).val / 4000 < cfg0.N := by omega
  obtain ⟨-, -, -, -, -, -, -, -, -, -, e0, e1⟩ := idx_facts ⟨(i 0).val / 4000, ht⟩
  refine ⟨⟨(i 0).val / 4000, ht⟩, flush0_5 _, ?_⟩
  rw [mem_outBlock]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    rw [e1]; omega

/-- So the result array ends at the layer's value. -/
theorem final (c : Dev nD) : (dats m 0 c).arrAt 5 cfg0.N = result m c :=
  (dats m 0 c).arrAt_eq_of_cover 5 (result m c) (fun t _ => flushed_eq m c t) covered

/-- The kernel program's run, read: the result array at the layer's value, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Sage.Kernel

end
-- ==== Proof.lean ====
/-
  A mean-aggregation graph layer: the tiled kernel against the array reference, over the extended reals.

  Both programs first compute, by the same array operations, the aggregated array `agg` (for each node the sum
  of its in-neighbours' feature rows divided by the neighbour count clamped below by one). The reference then
  returns  (agg · W_lᵀ + b) + x · W_rᵀ ;  the kernel program transposes the weights on the host and, in 25 grid
  steps of 4000 rows each, stores  (agg_blk · W_lᵀ + x_blk · W_rᵀ) + b  into the matching rows of the result.
  Over the extended reals a narrowing of the operands is the identity and each product is the plain sum over the
  contracted axis, so both results are, at row r and channel c,

      Σ_k agg[r,k]·W_l[c,k],  Σ_k x[r,k]·W_r[c,k]  and  b[c]

  added in two different orders; addition of extended reals is commutative and associative, so they agree on every
  input (no finiteness is used). The idealization rewrote nothing, so the preservation claim is trivial; the
  frames are the generated ones, the reference's being its run with the result dropped.
-/
import proofs.«107331_j53755810677325_1_alg».proof.Defs
import proofs.«107331_j53755810677325_1_alg».proof.Proof.Gen.Kernel
import proofs.«107331_j53755810677325_1_alg».proof.Proof.Gen.Kernel.Skeleton
import proofs.«107331_j53755810677325_1_alg».proof.Proof.Gen.Kernel.Launch
import proofs.«107331_j53755810677325_1_alg».proof.Proof.Gen.Kernel.Points
import proofs.«107331_j53755810677325_1_alg».proof.Proof.Gen.Kernel.Frame
import proofs.«107331_j53755810677325_1_alg».proof.Proof.Gen.KernelIdeal
import proofs.«107331_j53755810677325_1_alg».proof.Proof.Gen.KernelIdeal.Skeleton
import proofs.«107331_j53755810677325_1_alg».proof.Proof.Gen.KernelIdeal.Launch
import proofs.«107331_j53755810677325_1_alg».proof.Proof.Gen.KernelIdeal.Points
import proofs.«107331_j53755810677325_1_alg».proof.Proof.Gen.KernelIdeal.Frame
import proofs.«107331_j53755810677325_1_alg».proof.Proof.Gen.ReferenceIdeal
import proofs.«107331_j53755810677325_1_alg».proof.Proof.Gen.Pre_finite_inputs
import proofs.«107331_j53755810677325_1_alg».proof.Proof.Gen.KernelIdeal.Value
import proofs.«107331_j53755810677325_1_alg».proof.Proof.Gen.ReferenceIdeal.Run
import proofs.«107331_j53755810677325_1_alg».proof.Proof.Gen.ReferenceIdeal.Read
import proofs.«107331_j53755810677325_1_alg».proof.Proof.SageSpec
import proofs.«107331_j53755810677325_1_alg».proof.Proof.SageBody
import proofs.«107331_j53755810677325_1_alg».proof.Proof.SageRef
import proofs.«107331_j53755810677325_1_alg».proof.Proof.SageHost
import proofs.«107331_j53755810677325_1_alg».proof.Proof.SageKernel
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the layer's value of the aggregated
    array, the features, the two weight matrices and the bias: the kernel program by its 25 blocks, the reference
    by reading its last stages at an index and commuting the bias past the second product. -/
theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v30_eq, Cert.Sage.Ref.result_eq, a0, a1, a2, a3, a4]
  show _ = Cert.Sage.layer (Cert.KernelIdeal.Gen.V m c Cert.KernelIdeal.main_v22) _ _ _ _
  rw [Cert.Sage.Host.agg_entry]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
